-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x4096 : Shape := ⟨2, ![1024, 4096]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S1024x4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S8192x1024 .f32) (main_arg3 : FVec F S1024x4096 .f32) (main_arg4 : FVec F S4096 .f32) (main_arg5 : FVec F S1024x4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_v13 main_v16
-- ==== Kernel.lean ====
abbrev S8192x1024 : Shape := ⟨2, ![8192, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S1024x1024 : Shape := ⟨2, ![1024, 1024]⟩
abbrev S1x1024 : Shape := ⟨2, ![1, 1024]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x4096, .f32⟩
  | .hbm, ⟨4, _⟩ => ⟨S4096, .f32⟩
  | .hbm, ⟨5, _⟩ => ⟨S1024x4096, .f32⟩
  | .hbm, ⟨6, _⟩ => ⟨S1024x4096, .bf16⟩
  | .hbm, ⟨7, _⟩ => ⟨S1024x4096, .bf16⟩
  | .hbm, ⟨8, _⟩ => ⟨S1x4096, .f32⟩
  | .hbm, ⟨9, _⟩ => ⟨S8192x1024, .f32⟩
  | .hbm, ⟨10, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1x4096, .f32⟩
  | .local _ .vmem, ⟨8, _⟩ => ⟨S1024x4096, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  inb_S1024x4096_S1024x1024_0_3072 : ∀ a, (![0, 3072] : Fin 2 → Nat) a + S1024x1024.size a ≤ S1024x4096.size a
  inb_S1x4096_S1x1024_0_3072 : ∀ a, (![0, 3072] : Fin 2 → Nat) a + S1x1024.size a ≤ S1x4096.size a
  inb_S1024x4096_S1024x1024_0_1024 : ∀ a, (![0, 1024] : Fin 2 → Nat) a + S1024x1024.size a ≤ S1024x4096.size a
  inb_S1x4096_S1x1024_0_1024 : ∀ a, (![0, 1024] : Fin 2 → Nat) a + S1x1024.size a ≤ S1x4096.size a
  inb_S1024x4096_S1024x1024_0_2048 : ∀ a, (![0, 2048] : Fin 2 → Nat) a + S1024x1024.size a ≤ S1024x4096.size a
  inb_S1x4096_S1x1024_0_2048 : ∀ a, (![0, 2048] : Fin 2 → Nat) a + S1x1024.size a ≤ S1x4096.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x4096, .f32⟩
  | .hbm, ⟨4, _⟩ => ⟨S4096, .f32⟩
  | .hbm, ⟨5, _⟩ => ⟨S1024x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LogisticTanh.lean ====
/-
  The scalar law that joins the two programs' gate nonlinearities on the extended reals:
  the logistic function written through the hyperbolic tangent,
      1/2 · tanh (z/2) + 1/2  =  1 / (1 + e^(-z)),
  for EVERY extended real z. On a real z it is the textbook identity
  tanh y = (e^y - e^(-y)) / (e^y + e^(-y)) at y = z/2; at the two infinities both sides take
  their limits (0 at -∞, 1 at +∞) by the conventions of the operations. No finiteness is needed.
-/
import Idealize.ShloMosaic.PureOps.Ideal
import Mathlib.Analysis.Complex.Trigonometric
import Mathlib.Tactic.FieldSimp
import Mathlib.Tactic.Ring
import Mathlib.Tactic.NormNum

noncomputable section

namespace Cert.LstmGate

open Idealize.ShloMosaic

/-- The f32 word of one half denotes the real 1/2. -/
theorem half_word : Ideal.ofBits .f32 0x3F000000#32 = ((1 / 2 : ℝ) : EReal) := by
  simp [Ideal.ofBits, Ideal.ieee, -EReal.coe_mul]; norm_num

/-- The f32 word of one denotes 1. -/
theorem one_word : Ideal.ofBits .f32 0x3F800000#32 = (1 : EReal) := by
  simp [Ideal.ofBits, Ideal.ieee, -EReal.coe_mul]; norm_num

/-- On the reals: 1/2 · tanh (r/2) + 1/2 = 1 / (1 + e^(-r)). With a = e^(r/2) > 0 the left side is
    1/2 · (a - 1/a) / (a + 1/a) + 1/2 = a / (a + 1/a) and e^(-r) = (1/a)². -/
theorem real_logistic_tanh (r : ℝ) :
    1 / 2 * Real.tanh (1 / 2 * r) + 1 / 2 = (1 + Real.exp (-r))⁻¹ := by
  have ha : 0 < Real.exp (1 / 2 * r) := Real.exp_pos _
  have hinv : Real.exp (-(1 / 2 * r)) = (Real.exp (1 / 2 * r))⁻¹ := Real.exp_neg _
  have hsq : Real.exp (-r) = (Real.exp (1 / 2 * r))⁻¹ * (Real.exp (1 / 2 * r))⁻¹ := by
    rw [← hinv, ← Real.exp_add]; congr 1; ring
  rw [Real.tanh_eq, hinv, hsq]
  generalize Real.exp (1 / 2 * r) = a at ha
  have h0 : a ≠ 0 := ha.ne'
  have h1 : a + a⁻¹ ≠ 0 := by positivity
  have h2 : 1 + a⁻¹ * a⁻¹ ≠ 0 := by positivity
  field_simp
  ring

/-- The logistic function through the hyperbolic tangent, on all of the extended reals. -/
theorem logistic_tanh (z : EReal) :
    ((1 / 2 : ℝ) : EReal) * Ideal.tanh (((1 / 2 : ℝ) : EReal) * z) + ((1 / 2 : ℝ) : EReal)
      = Ideal.div 1 (1 + Ideal.exp (-z)) := by
  change _ = Ideal.logistic z
  induction z using EReal.rec with
  | bot =>
    rw [EReal.coe_mul_bot_of_pos (by norm_num : (0 : ℝ) < 1 / 2), Ideal.tanh_bot, Ideal.logistic_bot]
    rw [show (-1 : EReal) = ((-1 : ℝ) : EReal) from rfl, ← EReal.coe_mul, ← EReal.coe_add]
    norm_num
  | top =>
    rw [EReal.coe_mul_top_of_pos (by norm_num : (0 : ℝ) < 1 / 2), Ideal.tanh_top, Ideal.logistic_top]
    rw [mul_one, ← EReal.coe_add]
    norm_num
  | coe r =>
    rw [← EReal.coe_mul, Ideal.tanh_coe, ← EReal.coe_mul, ← EReal.coe_add, Ideal.logistic_coe,
      real_logistic_tanh]

end Cert.LstmGate

end
-- ==== Proof.CellSpec.lean ====
/-
  The LSTM cell as ONE function of the six argument arrays, index by index, on the extended reals.

  With B = 8192 batch rows, K = 1024 input (and state) columns and four gates of 1024 columns each stacked side by
  side in the 4096 columns of the two weight matrices and the bias, the gate pre-activation at batch row r and
  stacked column j is

      z r j = (Σ_k x[r,k] · Wx[k,j] + b[j]) + Σ_k h[r,k] · Wh[k,j].

  The gates read the four column bands: input gate i at columns q, forget gate f at 1024 + q, output gate o at
  2048 + q and the candidate g at 3072 + q (q < 1024). With σ(z) = 1 / (1 + e^(-z)):

      c'[r,q] = c[r,q] · σ(z r (1024+q)) + tanh (z r (3072+q)) · σ(z r q)
      h'[r,q] = tanh (c'[r,q]) · σ(z r (2048+q)).

  The second arrangement below is the same cell as a tiled kernel computes it: the two products are added first and
  the bias (held as a one-row matrix) last, and σ is spelt through the hyperbolic tangent,
  1/2 · tanh (z/2) + 1/2. The two arrangements agree on all of the extended reals: addition there is commutative and
  associative, and the tangent form of σ is the logistic function everywhere (the limits at ±∞ included), so no
  finiteness of the inputs is used.
-/
import Idealize.ShloMosaic.PureOps.Ideal
import Idealize.ShloMosaic.Lib.ValueIdx
import proofs.«427279_j10101763080406_3_alg».proof.Proof.LogisticTanh

noncomputable section

namespace Cert.LstmCell

open Idealize.ShloMosaic Idealize.ShloMosaic.ValueIdx

/-- Batch × state (and batch × input) arrays. -/
abbrev SBatch : Shape := ⟨2, ![8192, 1024]⟩
/-- The weight matrices: contraction × the four stacked gates. -/
abbrev SWeight : Shape := ⟨2, ![1024, 4096]⟩
/-- The bias over the four stacked gates, and the same as a one-row matrix. -/
abbrev SBias : Shape := ⟨1, ![4096]⟩
abbrev SBiasRow : Shape := ⟨2, ![1, 4096]⟩

/-- The stacked column of the input gate, the forget gate, the output gate and the candidate at state column q. -/
def colI (q : Fin 1024) : Fin 4096 := ⟨q.val, by have := q.isLt; omega⟩
def colF (q : Fin 1024) : Fin 4096 := ⟨1024 + q.val, by have := q.isLt; omega⟩
def colO (q : Fin 1024) : Fin 4096 := ⟨2048 + q.val, by have := q.isLt; omega⟩
def colG (q : Fin 1024) : Fin 4096 := ⟨3072 + q.val, by have := q.isLt; omega⟩

/-- The gate pre-activation at batch row r and stacked column j: (x·Wx + b) + h·Wh. -/
def preact (x h : SBatch.Idx → EReal) (Wx Wh : SWeight.Idx → EReal) (b : SBias.Idx → EReal) (r : Fin 8192) (j : Fin 4096) : EReal :=
  ((∑ k : Fin 1024, x (ix2 r k) * Wx (ix2 k j)) + b (ix1 j)) + ∑ k : Fin 1024, h (ix2 r k) * Wh (ix2 k j)

/-- The logistic function 1 / (1 + e^(-z)), the constant 1 as its f32 word. -/
def sigm (z : EReal) : EReal :=
  Ideal.div (Ideal.ofBits .f32 0x3F800000#32) (Ideal.ofBits .f32 0x3F800000#32 + Ideal.exp (-z))

/-- The next cell state at batch row r, state column q. -/
def nextCAt (x h c : SBatch.Idx → EReal) (Wx : SWeight.Idx → EReal) (b : SBias.Idx → EReal) (Wh : SWeight.Idx → EReal)
    (r : Fin 8192) (q : Fin 1024) : EReal :=
  c (ix2 r q) * sigm (preact x h Wx Wh b r (colF q))
    + Ideal.tanh (preact x h Wx Wh b r (colG q)) * sigm (preact x h Wx Wh b r (colI q))

/-- The next hidden state at batch row r, state column q. -/
def nextHAt (x h c : SBatch.Idx → EReal) (Wx : SWeight.Idx → EReal) (b : SBias.Idx → EReal) (Wh : SWeight.Idx → EReal)
    (r : Fin 8192) (q : Fin 1024) : EReal :=
  Ideal.tanh (nextCAt x h c Wx b Wh r q) * sigm (preact x h Wx Wh b r (colO q))

/-- The next cell state, as an array. -/
def nextC (x h c : SBatch.Idx → EReal) (Wx : SWeight.Idx → EReal) (b : SBias.Idx → EReal) (Wh : SWeight.Idx → EReal) : SBatch.Idx → EReal :=
  fun i => nextCAt x h c Wx b Wh (i 0) (i 1)

/-- The next hidden state, as an array. -/
def nextH (x h c : SBatch.Idx → EReal) (Wx : SWeight.Idx → EReal) (b : SBias.Idx → EReal) (Wh : SWeight.Idx → EReal) : SBatch.Idx → EReal :=
  fun i => nextHAt x h c Wx b Wh (i 0) (i 1)

/-! ## The tiled arrangement -/

/-- The pre-activation with the two products added first and the one-row bias last: (x·Wx + h·Wh) + b. -/
def preactT (x h : SBatch.Idx → EReal) (Wx Wh : SWeight.Idx → EReal) (bRow : SBiasRow.Idx → EReal) (r : Fin 8192) (j : Fin 4096) : EReal :=
  ((∑ k : Fin 1024, x (ix2 r k) * Wx (ix2 k j)) + ∑ k : Fin 1024, h (ix2 r k) * Wh (ix2 k j)) + bRow (ix2 (0 : Fin 1) j)

/-- The logistic function through the hyperbolic tangent, one half as its f32 word. -/
def sigmT (z : EReal) : EReal :=
  Ideal.ofBits .f32 0x3F000000#32 * Ideal.tanh (Ideal.ofBits .f32 0x3F000000#32 * z) + Ideal.ofBits .f32 0x3F000000#32

def nextCTAt (x h c : SBatch.Idx → EReal) (Wx : SWeight.Idx → EReal) (bRow : SBiasRow.Idx → EReal) (Wh : SWeight.Idx → EReal)
    (r : Fin 8192) (q : Fin 1024) : EReal :=
  c (ix2 r q) * sigmT (preactT x h Wx Wh bRow r (colF q))
    + Ideal.tanh (preactT x h Wx Wh bRow r (colG q)) * sigmT (preactT x h Wx Wh bRow r (colI q))

def nextHTAt (x h c : SBatch.Idx → EReal) (Wx : SWeight.Idx → EReal) (bRow : SBiasRow.Idx → EReal) (Wh : SWeight.Idx → EReal)
    (r : Fin 8192) (q : Fin 1024) : EReal :=
  Ideal.tanh (nextCTAt x h c Wx bRow Wh r q) * sigmT (preactT x h Wx Wh bRow r (colO q))

def nextCT (x h c : SBatch.Idx → EReal) (Wx : SWeight.Idx → EReal) (bRow : SBiasRow.Idx → EReal) (Wh : SWeight.Idx → EReal) : SBatch.Idx → EReal :=
  fun i => nextCTAt x h c Wx bRow Wh (i 0) (i 1)

def nextHT (x h c : SBatch.Idx → EReal) (Wx : SWeight.Idx → EReal) (bRow : SBiasRow.Idx → EReal) (Wh : SWeight.Idx → EReal) : SBatch.Idx → EReal :=
  fun i => nextHTAt x h c Wx bRow Wh (i 0) (i 1)

/-! ## The two arrangements are one function -/

/-- The tangent form of the logistic function is the logistic function, at every extended real. -/
theorem sigmT_eq (z : EReal) : sigmT z = sigm z := by
  unfold sigmT sigm
  rw [Cert.LstmGate.half_word, Cert.LstmGate.one_word]
  exact Cert.LstmGate.logistic_tanh z

/-- The pre-activation does not depend on the order in which its three summands are added. -/
theorem preactT_eq (x h : SBatch.Idx → EReal) (Wx Wh : SWeight.Idx → EReal) (b : SBias.Idx → EReal) (bRow : SBiasRow.Idx → EReal)
    (hb : ∀ j : Fin 4096, bRow (ix2 (0 : Fin 1) j) = b (ix1 j)) (r : Fin 8192) (j : Fin 4096) :
    preactT x h Wx Wh bRow r j = preact x h Wx Wh b r j := by
  unfold preactT preact
  rw [hb j, add_right_comm]

theorem nextCTAt_eq (x h c : SBatch.Idx → EReal) (Wx : SWeight.Idx → EReal) (b : SBias.Idx → EReal) (bRow : SBiasRow.Idx → EReal) (Wh : SWeight.Idx → EReal)
    (hb : ∀ j : Fin 4096, bRow (ix2 (0 : Fin 1) j) = b (ix1 j)) (r : Fin 8192) (q : Fin 1024) :
    nextCTAt x h c Wx bRow Wh r q = nextCAt x h c Wx b Wh r q := by
  unfold nextCTAt nextCAt
  rw [preactT_eq x h Wx Wh b bRow hb r (colF q), preactT_eq x h Wx Wh b bRow hb r (colG q),
    preactT_eq x h Wx Wh b bRow hb r (colI q), sigmT_eq, sigmT_eq]

theorem nextHTAt_eq (x h c : SBatch.Idx → EReal) (Wx : SWeight.Idx → EReal) (b : SBias.Idx → EReal) (bRow : SBiasRow.Idx → EReal) (Wh : SWeight.Idx → EReal)
    (hb : ∀ j : Fin 4096, bRow (ix2 (0 : Fin 1) j) = b (ix1 j)) (r : Fin 8192) (q : Fin 1024) :
    nextHTAt x h c Wx bRow Wh r q = nextHAt x h c Wx b Wh r q := by
  unfold nextHTAt nextHAt
  rw [nextCTAt_eq x h c Wx b bRow Wh hb r q, preactT_eq x h Wx Wh b bRow hb r (colO q), sigmT_eq]

theorem nextCT_eq (x h c : SBatch.Idx → EReal) (Wx : SWeight.Idx → EReal) (b : SBias.Idx → EReal) (bRow : SBiasRow.Idx → EReal) (Wh : SWeight.Idx → EReal)
    (hb : ∀ j : Fin 4096, bRow (ix2 (0 : Fin 1) j) = b (ix1 j)) :
    nextCT x h c Wx bRow Wh = nextC x h c Wx b Wh :=
  funext fun i => nextCTAt_eq x h c Wx b bRow Wh hb (i 0) (i 1)

theorem nextHT_eq (x h c : SBatch.Idx → EReal) (Wx : SWeight.Idx → EReal) (b : SBias.Idx → EReal) (bRow : SBiasRow.Idx → EReal) (Wh : SWeight.Idx → EReal)
    (hb : ∀ j : Fin 4096, bRow (ix2 (0 : Fin 1) j) = b (ix1 j)) :
    nextHT x h c Wx bRow Wh = nextH x h c Wx b Wh :=
  funext fun i => nextHTAt_eq x h c Wx b bRow Wh hb (i 0) (i 1)

end Cert.LstmCell

end
-- ==== Proof.KernelTile.lean ====
/-
  One grid point of the kernel, read at an index of its 256 × 1024 output tiles.

  The body multiplies the point's 256 rows of x and of h with four 1024 × 1024 column bands of the two (whole)
  weight matrices, each product into a zero accumulator, adds the two products and then the band's piece of the
  one-row bias broadcast over the rows; the gates follow with the logistic function spelt through the hyperbolic
  tangent. Read at row p and column q of the tile this is the tiled arrangement of the cell (CellSpec) restricted to
  the point's rows: the same sums over the 1024 contraction indices, the weight and bias entries taken at the
  stacked columns q, 1024 + q, 2048 + q and 3072 + q.
-/
import proofs.«427279_j10101763080406_3_alg».proof.Proof.Gen.KernelIdeal.Frame
import proofs.«427279_j10101763080406_3_alg».proof.Proof.CellSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.LstmCell

/-! ## The 256 × 1024 by 1024 × 1024 product at an index -/

theorem lhs_axis0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_axis1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_axis0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_axis1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product into a zero accumulator at (p, q) is Σ_k a[p,k] · w[k,q]. -/
theorem product_apply (a : FVec Ideal S256x1024 .bf16) (w : FVec Ideal S1024x1024 .bf16) (p : Fin 256) (q : Fin 1024) :
    matmul dot_S256x1024_S1024x1024_S256x1024_1_0_0_1_n_n none a w (constant S256x1024 .f32 0x00000000#32) (ix2 p q)
      = ∑ k : Fin 1024, a (ix2 p k) * w (ix2 k q) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

theorem tanh_apply {s : Shape} {φ : FTy} (a : FVec Ideal s φ) (i : s.Idx) : tanh a i = Ideal.tanh (a i) := rfl

/-! ## One gate's pre-activation tile -/

/-- (Σ_k a[p,k]·w[k,q] + Σ_k b[p,k]·u[k,q]) + bias[0,q] over one 1024-column band. -/
def band (a b : S256x1024.Idx → EReal) (w u : S1024x1024.Idx → EReal) (bias : S1x1024.Idx → EReal) (p : Fin 256) (q : Fin 1024) : EReal :=
  ((∑ k : Fin 1024, a (ix2 p k) * w (ix2 k q)) + ∑ k : Fin 1024, b (ix2 p k) * u (ix2 k q)) + bias (ix2 (0 : Fin 1) q)

theorem band_apply (a b : FVec Ideal S256x1024 .bf16) (w u : FVec Ideal S1024x1024 .bf16) (bias : FVec Ideal S1x1024 .f32) (p : Fin 256) (q : Fin 1024) :
    (matmul dot_S256x1024_S1024x1024_S256x1024_1_0_0_1_n_n none a (shapeCast S1024x1024 w shapeCasts_S1024x1024_S1024x1024) (constant S256x1024 .f32 0x00000000#32) (ix2 p q)
      + matmul dot_S256x1024_S1024x1024_S256x1024_1_0_0_1_n_n none b (shapeCast S1024x1024 u shapeCasts_S1024x1024_S1024x1024) (constant S256x1024 .f32 0x00000000#32) (ix2 p q))
      + broadcastTo S256x1024 (shapeCast S1x1024 bias shapeCasts_S1x1024_S1x1024) broadcasts_S1x1024_S256x1024 (ix2 p q)
    = band a b w u bias p q := by
  rw [shapeCast_self, shapeCast_self, shapeCast_self, product_apply, product_apply, broadcastTo_1b_ab_apply]
  rfl

/-! ## The payloads at an index -/

/-- g · i: the candidate's tangent times the input gate. -/
theorem pay4_apply (v0 v2 : FVec Ideal S256x1024 .f32) (v4 v6 : FVec Ideal S1024x1024 .bf16) (v8 : FVec Ideal S1x1024 .f32)
    (v22 v24 : FVec Ideal S1024x1024 .bf16) (v26 : FVec Ideal S1x1024 .f32) (p : Fin 256) (q : Fin 1024) :
    k0_pay4 (F := Ideal) v0 v2 v4 v6 v8 v22 v24 v26 (ix2 p q)
      = Ideal.tanh (band v0 v2 v22 v24 v26 p q) * sigmT (band v0 v2 v4 v6 v8 p q) := by
  unfold k0_pay4
  simp only [mulf_apply, addf_apply, tanh_apply, broadcast_apply, band_apply]
  rfl

/-- c · f + g · i: the next cell state. -/
theorem pay5_apply (v1 v3 : FVec Ideal S256x1024 .bf16) (v34 : FVec Ideal S256x1024 .f32) (v35 v37 : FVec Ideal S1024x1024 .bf16)
    (v39 : FVec Ideal S1x1024 .f32) (v53 : FVec Ideal S256x1024 .f32) (p : Fin 256) (q : Fin 1024) :
    k0_pay5 (F := Ideal) v1 v3 v34 v35 v37 v39 v53 (ix2 p q)
      = v53 (ix2 p q) * sigmT (band v1 v3 v35 v37 v39 p q) + v34 (ix2 p q) := by
  unfold k0_pay5
  simp only [mulf_apply, addf_apply, tanh_apply, broadcast_apply, band_apply]
  rfl

/-- The output gate less its final one half: 1/2 · tanh (z/2). -/
theorem pay6_apply (v1 v3 : FVec Ideal S256x1024 .bf16) (v56 v58 : FVec Ideal S1024x1024 .bf16) (v60 : FVec Ideal S1x1024 .f32)
    (p : Fin 256) (q : Fin 1024) :
    k0_pay6 (F := Ideal) v1 v3 v56 v58 v60 (ix2 p q)
      = Ideal.ofBits .f32 0x3F000000#32 * Ideal.tanh (Ideal.ofBits .f32 0x3F000000#32 * band v1 v3 v56 v58 v60 p q) := by
  unfold k0_pay6
  simp only [mulf_apply, addf_apply, tanh_apply, broadcast_apply, band_apply]
  rfl

/-- tanh (c') · o: the next hidden state. -/
theorem pay1_apply (v55 v71 : FVec Ideal S256x1024 .f32) (half : Ideal .f32) (p : Fin 256) (q : Fin 1024) :
    k0_pay1 (F := Ideal) v55 v71 half (ix2 p q) = Ideal.tanh (v55 (ix2 p q)) * (v71 (ix2 p q) + half) := by
  unfold k0_pay1
  simp only [mulf_apply, addf_apply, tanh_apply, broadcast_apply]

/-! ## The column bands of the weights and of the bias, loaded from the whole matrices -/

/-- Rows k, columns o + q of a 1024 × 4096 matrix, through the band's rectangle. -/
theorem ld_weight (x : Vec Ideal S1024x4096 .bf16) (o : Nat)
    (inb : ∀ a, (![0, o] : Fin 2 → Nat) a + S1024x1024.size a ≤ S1024x4096.size a) (k q : Fin 1024) (j : Fin 4096)
    (hj : j.val = o + q.val) :
    View.ld x (Rect.unit (s := S1024x4096) ![0, o] S1024x1024.size inb) (ix2 k q) = x (ix2 k j) := by
  show x _ = x _
  refine congrArg x (funext fun a => Fin.ext ?_)
  match a with
  | ⟨0, _⟩ => show 0 + 1 * k.val = k.val; omega
  | ⟨1, _⟩ => show o + 1 * q.val = j.val; omega

/-- Column o + q of the one-row bias, through the band's rectangle. -/
theorem ld_bias (x : Vec Ideal S1x4096 .f32) (o : Nat)
    (inb : ∀ a, (![0, o] : Fin 2 → Nat) a + S1x1024.size a ≤ S1x4096.size a) (q : Fin 1024) (j : Fin 4096)
    (hj : j.val = o + q.val) :
    View.ld x (Rect.unit (s := S1x4096) ![0, o] S1x1024.size inb) (ix2 (0 : Fin 1) q) = x (ix2 (0 : Fin 1) j) := by
  show x _ = x _
  refine congrArg x (funext fun a => Fin.ext ?_)
  match a with
  | ⟨0, _⟩ => show 0 + 1 * 0 = 0; omega
  | ⟨1, _⟩ => show o + 1 * q.val = j.val; omega

/-- One gate's pre-activation at row p of the tile and stacked column j, from the point's blocks: the row blocks of x
    and h, the whole weight matrices and the whole one-row bias. -/
def tilePre (x0 x1 : S256x1024.Idx → EReal) (x3 x5 : S1024x4096.Idx → EReal) (x4 : S1x4096.Idx → EReal) (p : Fin 256) (j : Fin 4096) : EReal :=
  ((∑ k : Fin 1024, x0 (ix2 p k) * x3 (ix2 k j)) + ∑ k : Fin 1024, x1 (ix2 p k) * x5 (ix2 k j)) + x4 (ix2 (0 : Fin 1) j)

/-- A band of the loaded weights and bias is the tile's pre-activation at the band's stacked column. -/
theorem band_ld (a b : S256x1024.Idx → EReal) (x3 x5 : Vec Ideal S1024x4096 .bf16) (x4 : Vec Ideal S1x4096 .f32) (o : Nat)
    (inbW : ∀ a, (![0, o] : Fin 2 → Nat) a + S1024x1024.size a ≤ S1024x4096.size a)
    (inbB : ∀ a, (![0, o] : Fin 2 → Nat) a + S1x1024.size a ≤ S1x4096.size a)
    (p : Fin 256) (q : Fin 1024) (j : Fin 4096) (hj : j.val = o + q.val) :
    band a b (View.ld x3 (Rect.unit (s := S1024x4096) ![0, o] S1024x1024.size inbW))
        (View.ld x5 (Rect.unit (s := S1024x4096) ![0, o] S1024x1024.size inbW))
        (View.ld x4 (Rect.unit (s := S1x4096) ![0, o] S1x1024.size inbB)) p q
      = tilePre a b x3 x5 x4 p j := by
  unfold band tilePre
  rw [ld_bias x4 o inbB q j hj]
  refine congrArg (· + x4 (ix2 (0 : Fin 1) j)) ?_
  refine congrArg₂ (· + ·) (Finset.sum_congr rfl fun k _ => ?_) (Finset.sum_congr rfl fun k _ => ?_)
  · rw [ld_weight x3 o inbW k q j hj]
  · rw [ld_weight x5 o inbW k q j hj]

/-! ## The two output tiles at an index -/

/-- The next cell state at (p, q) of the tile, from the point's blocks. -/
def tileC (x0 x1 x2 : S256x1024.Idx → EReal) (x3 x5 : S1024x4096.Idx → EReal) (x4 : S1x4096.Idx → EReal) (p : Fin 256) (q : Fin 1024) : EReal :=
  x2 (ix2 p q) * sigmT (tilePre x0 x1 x3 x5 x4 p (colF q))
    + Ideal.tanh (tilePre x0 x1 x3 x5 x4 p (colG q)) * sigmT (tilePre x0 x1 x3 x5 x4 p (colI q))

/-- The next hidden state at (p, q) of the tile, from the point's blocks. -/
def tileH (x0 x1 x2 : S256x1024.Idx → EReal) (x3 x5 : S1024x4096.Idx → EReal) (x4 : S1x4096.Idx → EReal) (p : Fin 256) (q : Fin 1024) : EReal :=
  Ideal.tanh (tileC x0 x1 x2 x3 x5 x4 p q) * sigmT (tilePre x0 x1 x3 x5 x4 p (colO q))

theorem hz : (![0, 0] : Fin 2 → Nat) = fun _ => 0 := funext fun a => by fin_cases a <;> rfl

/-- What the body leaves in the cell-state tile. -/
theorem cell_tile_apply (x0 x1 x2 : FVec Ideal S256x1024 .f32) (x3 x5 : FVec Ideal S1024x4096 .bf16) (x4 : FVec Ideal S1x4096 .f32)
    (p : Fin 256) (q : Fin 1024) :
    out0_7 (F := Ideal) x0 x1 x2 x3 x4 x5 (ix2 p q) = tileC x0 x1 x2 x3 x5 x4 p q := by
  unfold out0_7
  rw [View.canon_unit_zero hz]
  simp only [View.ld_unit_zero (S := S256x1024) hz]
  rw [pay5_apply, pay4_apply]
  rw [band_ld _ _ x3 x5 x4 1024 _ _ p q (colF q) rfl, band_ld _ _ x3 x5 x4 3072 _ _ p q (colG q) rfl,
    band_ld _ _ x3 x5 x4 0 _ _ p q (colI q) (Nat.zero_add _).symm]
  rfl

/-- What the body leaves in the hidden-state tile. -/
theorem hidden_tile_apply (x0 x1 x2 : FVec Ideal S256x1024 .f32) (x3 x5 : FVec Ideal S1024x4096 .bf16) (x4 : FVec Ideal S1x4096 .f32)
    (p : Fin 256) (q : Fin 1024) :
    out0_6 (F := Ideal) x0 x1 x2 x3 x4 x5 (ix2 p q) = tileH x0 x1 x2 x3 x5 x4 p q := by
  unfold out0_6
  rw [View.canon_unit_zero hz]
  simp only [View.ld_unit_zero (S := S256x1024) hz]
  rw [pay1_apply, pay5_apply, pay4_apply, pay6_apply]
  rw [band_ld _ _ x3 x5 x4 1024 _ _ p q (colF q) rfl, band_ld _ _ x3 x5 x4 3072 _ _ p q (colG q) rfl,
    band_ld _ _ x3 x5 x4 0 _ _ p q (colI q) (Nat.zero_add _).symm, band_ld _ _ x3 x5 x4 2048 _ _ p q (colO q) rfl]
  rfl

/-- The same at any index of the tile. -/
theorem cell_tile_at (x0 x1 x2 : FVec Ideal S256x1024 .f32) (x3 x5 : FVec Ideal S1024x4096 .bf16) (x4 : FVec Ideal S1x4096 .f32)
    (y : S256x1024.Idx) :
    out0_7 (F := Ideal) x0 x1 x2 x3 x4 x5 y = tileC x0 x1 x2 x3 x5 x4 (y 0) (y 1) := by
  obtain ⟨p, q, rfl⟩ : ∃ (p : Fin 256) (q : Fin 1024), y = ix2 p q := ⟨y 0, y 1, eq_ix2 y⟩
  exact cell_tile_apply x0 x1 x2 x3 x5 x4 p q

theorem hidden_tile_at (x0 x1 x2 : FVec Ideal S256x1024 .f32) (x3 x5 : FVec Ideal S1024x4096 .bf16) (x4 : FVec Ideal S1x4096 .f32)
    (y : S256x1024.Idx) :
    out0_6 (F := Ideal) x0 x1 x2 x3 x4 x5 y = tileH x0 x1 x2 x3 x5 x4 (y 0) (y 1) := by
  obtain ⟨p, q, rfl⟩ : ∃ (p : Fin 256) (q : Fin 1024), y = ix2 p q := ⟨y 0, y 1, eq_ix2 y⟩
  exact hidden_tile_apply x0 x1 x2 x3 x5 x4 p q

end Cert.KernelIdeal.Tile

end
-- ==== Proof.KernelArray.lean ====
/-
  From the tiles to the two result arrays.

  The grid has 32 points; point t stages rows 256·t … 256·t + 255 of x, h and c, the whole of the two weight
  matrices and of the one-row bias, and writes back rows 256·t … 256·t + 255 of the two results. So what point t
  writes back is the rows of its block of the cell computed from the whole arrays, the 32 blocks tile the 8192
  rows, and each result array ends holding the cell of the arrays the region found. Those are the arguments
  themselves for x, h, c; the weight matrices after a change of float format (the identity on the extended
  reals); and the bias reshaped to one row. With the two arrangements of the cell identified (CellSpec) the run
  ends with the next hidden state and the next cell state of the six arguments.
-/
import proofs.«427279_j10101763080406_3_alg».proof.Proof.Gen.KernelIdeal.Value
import proofs.«427279_j10101763080406_3_alg».proof.Proof.KernelTile
import Idealize.ShloMosaic.Lib.StableHlo.Run

noncomputable section

namespace Cert.KernelIdeal.CellValue

open Cert.KernelIdeal Cert.KernelIdeal.Gen Cert.KernelIdeal.Value Cert.KernelIdeal.Tile Cert.LstmCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays as the region finds them -/

abbrev arrX (c : Dev nD) : S8192x1024.Idx → EReal := V m c main_arg0
abbrev arrH (c : Dev nD) : S8192x1024.Idx → EReal := V m c main_arg1
abbrev arrC (c : Dev nD) : S8192x1024.Idx → EReal := V m c main_arg2
abbrev arrWx (c : Dev nD) : S1024x4096.Idx → EReal := V m c main_v0
abbrev arrB (c : Dev nD) : S1x4096.Idx → EReal := V m c main_v2
abbrev arrWh (c : Dev nD) : S1024x4096.Idx → EReal := V m c main_v1

/-- The block index maps, decided over the 32 points: the row windows sit at block row t, the resident windows at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The input blocks as entries of the arrays -/

/-- Row p of point t's block of x is row 256·t + p of x. -/
theorem blockX_apply (c : Dev nD) (t : Fin cfg0.N) (y : S256x1024.Idx) (k : S8192x1024.Idx)
    (hk0 : (k 0).val = 256 * t.val + (y 0).val) (hk1 : (k 1).val = (y 1).val) :
    (iblk m c 0 t : S256x1024.Idx → EReal) y = arrX m c k := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 256 + 1 * (y 0).val = (k 0).val; rw [e0, hk0]; omega
  | ⟨1, _⟩ => show win0_0.index t (1 : Fin 2) * 1024 + 1 * (y 1).val = (k 1).val; rw [e1, hk1]; omega

theorem blockH_apply (c : Dev nD) (t : Fin cfg0.N) (y : S256x1024.Idx) (k : S8192x1024.Idx)
    (hk0 : (k 0).val = 256 * t.val + (y 0).val) (hk1 : (k 1).val = (y 1).val) :
    (iblk m c 1 t : S256x1024.Idx → EReal) y = arrH m c k := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 256 + 1 * (y 0).val = (k 0).val; rw [e0, hk0]; omega
  | ⟨1, _⟩ => show win0_1.index t (1 : Fin 2) * 1024 + 1 * (y 1).val = (k 1).val; rw [e1, hk1]; omega

theorem blockC_apply (c : Dev nD) (t : Fin cfg0.N) (y : S256x1024.Idx) (k : S8192x1024.Idx)
    (hk0 : (k 0).val = 256 * t.val + (y 0).val) (hk1 : (k 1).val = (y 1).val) :
    (iblk m c 2 t : S256x1024.Idx → EReal) y = arrC m c k := by
  obtain ⟨-, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 256 + 1 * (y 0).val = (k 0).val; rw [e0, hk0]; omega
  | ⟨1, _⟩ => show win0_2.index t (1 : Fin 2) * 1024 + 1 * (y 1).val = (k 1).val; rw [e1, hk1]; omega

/-- The resident windows' one block is the whole array. -/
theorem blockWx_eq (c : Dev nD) (t : Fin cfg0.N) : (iblk m c 3 t : S1024x4096.Idx → EReal) = arrWx m c := by
  obtain ⟨-, -, -, -, -, -, e0, e1, -⟩ := idx_facts t
  funext y
  unfold iblk
  rw [View.read_apply]
  show V m c main_v0 _ = V m c main_v0 _
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 4096 + 1 * (y 1).val = (y 1).val; rw [e1]; omega

theorem blockB_eq (c : Dev nD) (t : Fin cfg0.N) : (iblk m c 4 t : S1x4096.Idx → EReal) = arrB m c := by
  obtain ⟨-, -, -, -, -, -, -, -, e0, e1, -⟩ := idx_facts t
  funext y
  unfold iblk
  rw [View.read_apply]
  show V m c main_v2 _ = V m c main_v2 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 4096 + 1 * (y 1).val = (y 1).val; rw [e1]; omega

theorem blockWh_eq (c : Dev nD) (t : Fin cfg0.N) : (iblk m c 5 t : S1024x4096.Idx → EReal) = arrWh m c := by
  obtain ⟨-, -, -, -, -, -, -, -, -, -, e0, e1, -⟩ := idx_facts t
  funext y
  unfold iblk
  rw [View.read_apply]
  show V m c main_v1 _ = V m c main_v1 _
  congr 1
  funext a
  apply Fin.ext
  match a with
  | ⟨0, _⟩ => show win0_5.index t (0 : Fin 2) * 1024 + 1 * (y 0).val = (y 0).val; rw [e0]; omega
  | ⟨1, _⟩ => show win0_5.index t (1 : Fin 2) * 4096 + 1 * (y 1).val = (y 1).val; rw [e1]; omega

/-! ## A tile of the blocks is the rows of the cell of the arrays -/

theorem tilePre_of_rows (A0 A1 : S8192x1024.Idx → EReal) (W0 W1 : S1024x4096.Idx → EReal) (B : S1x4096.Idx → EReal)
    (x0 x1 : S256x1024.Idx → EReal) (r : Fin 8192) (p : Fin 256)
    (h0 : ∀ k : Fin 1024, x0 (ix2 p k) = A0 (ix2 r k)) (h1 : ∀ k : Fin 1024, x1 (ix2 p k) = A1 (ix2 r k)) (j : Fin 4096) :
    tilePre x0 x1 W0 W1 B p j = preactT A0 A1 W0 W1 B r j := by
  unfold tilePre preactT
  simp only [h0, h1]

theorem tileC_of_rows (A0 A1 A2 : S8192x1024.Idx → EReal) (W0 W1 : S1024x4096.Idx → EReal) (B : S1x4096.Idx → EReal)
    (x0 x1 x2 : S256x1024.Idx → EReal) (x3 x5 : S1024x4096.Idx → EReal) (x4 : S1x4096.Idx → EReal)
    (r : Fin 8192) (p : Fin 256) (q : Fin 1024)
    (h0 : ∀ k : Fin 1024, x0 (ix2 p k) = A0 (ix2 r k)) (h1 : ∀ k : Fin 1024, x1 (ix2 p k) = A1 (ix2 r k))
    (h2 : x2 (ix2 p q) = A2 (ix2 r q)) (h3 : x3 = W0) (h5 : x5 = W1) (h4 : x4 = B) :
    tileC x0 x1 x2 x3 x5 x4 p q = nextCTAt A0 A1 A2 W0 B W1 r q := by
  subst h3 h5 h4
  unfold tileC nextCTAt
  rw [tilePre_of_rows A0 A1 x3 x5 x4 x0 x1 r p h0 h1, tilePre_of_rows A0 A1 x3 x5 x4 x0 x1 r p h0 h1,
    tilePre_of_rows A0 A1 x3 x5 x4 x0 x1 r p h0 h1, h2]

theorem tileH_of_rows (A0 A1 A2 : S8192x1024.Idx → EReal) (W0 W1 : S1024x4096.Idx → EReal) (B : S1x4096.Idx → EReal)
    (x0 x1 x2 : S256x1024.Idx → EReal) (x3 x5 : S1024x4096.Idx → EReal) (x4 : S1x4096.Idx → EReal)
    (r : Fin 8192) (p : Fin 256) (q : Fin 1024)
    (h0 : ∀ k : Fin 1024, x0 (ix2 p k) = A0 (ix2 r k)) (h1 : ∀ k : Fin 1024, x1 (ix2 p k) = A1 (ix2 r k))
    (h2 : x2 (ix2 p q) = A2 (ix2 r q)) (h3 : x3 = W0) (h5 : x5 = W1) (h4 : x4 = B) :
    tileH x0 x1 x2 x3 x5 x4 p q = nextHTAt A0 A1 A2 W0 B W1 r q := by
  unfold tileH nextHTAt
  rw [tileC_of_rows A0 A1 A2 W0 W1 B x0 x1 x2 x3 x5 x4 r p q h0 h1 h2 h3 h5 h4]
  subst h3 h5 h4
  rw [tilePre_of_rows A0 A1 x3 x5 x4 x0 x1 r p h0 h1]

/-! ## What a point writes back -/

/-- Point t writes back its rows of the cell state of the arrays. -/
theorem cell_flushed (c : Dev nD) (t : Fin cfg0.N) :
    (dats m 0 c).flushed 7 t = ((cfg0.win 7).blk t).view.read (Elt Ideal)
      (nextCT (arrX m c) (arrH m c) (arrC m c) (arrWx m c) (arrB m c) (arrWh m c)) := by
  rw [Value.flushed7]
  obtain ⟨-, -, -, -, -, -, -, -, -, -, -, -, -, -, e0, e1⟩ := idx_facts t
  have ht : t.val < 32 := lt_of_lt_of_eq t.isLt N_0
  funext j
  obtain ⟨p, q, rfl⟩ : ∃ (p : Fin 256) (q : Fin 1024), j = ix2 p q := ⟨j 0, j 1, eq_ix2 (n0 := 256) (n1 := 1024) j⟩
  have hp : p.val < 256 := p.isLt
  have hemb : ((cfg0.win 7).blk t).view.emb (ix2 p q) = ix2 (⟨256 * t.val + p.val, by omega⟩ : Fin 8192) q := by
    funext a
    apply Fin.ext
    match a with
    | ⟨0, _⟩ => show win0_7.index t (0 : Fin 2) * 256 + 1 * p.val = 256 * t.val + p.val; rw [e0]; omega
    | ⟨1, _⟩ => show win0_7.index t (1 : Fin 2) * 1024 + 1 * q.val = q.val; rw [e1]; omega
  show out0_7 (iblk m c 0 t) (iblk m c 1 t) (iblk m c 2 t) (iblk m c 3 t) (iblk m c 4 t) (iblk m c 5 t) (ix2 p q)
    = nextCT (arrX m c) (arrH m c) (arrC m c) (arrWx m c) (arrB m c) (arrWh m c) (((cfg0.win 7).blk t).view.emb (ix2 p q))
  rw [hemb]
  refine (cell_tile_apply (iblk m c 0 t) (iblk m c 1 t) (iblk m c 2 t) (iblk m c 3 t) (iblk m c 5 t) (iblk m c 4 t) p q).trans ?_
  exact tileC_of_rows (arrX m c) (arrH m c) (arrC m c) (arrWx m c) (arrWh m c) (arrB m c)
    (iblk m c 0 t) (iblk m c 1 t) (iblk m c 2 t) (iblk m c 3 t) (iblk m c 5 t) (iblk m c 4 t) ⟨256 * t.val + p.val, by omega⟩ p q
    (fun k => blockX_apply m c t _ _ rfl rfl) (fun k => blockH_apply m c t _ _ rfl rfl) (blockC_apply m c t _ _ rfl rfl)
    (blockWx_eq m c t) (blockWh_eq m c t) (blockB_eq m c t)

/-- Point t writes back its rows of the hidden state of the arrays. -/
theorem hidden_flushed (c : Dev nD) (t : Fin cfg0.N) :
    (dats m 0 c).flushed 6 t = ((cfg0.win 6).blk t).view.read (Elt Ideal)
      (nextHT (arrX m c) (arrH m c) (arrC m c) (arrWx m c) (arrB m c) (arrWh m c)) := by
  rw [Value.flushed6]
  obtain ⟨-, -, -, -, -, -, -, -, -, -, -, -, e0, e1, -⟩ := idx_facts t
  have ht : t.val < 32 := lt_of_lt_of_eq t.isLt N_0
  funext j
  obtain ⟨p, q, rfl⟩ : ∃ (p : Fin 256) (q : Fin 1024), j = ix2 p q := ⟨j 0, j 1, eq_ix2 (n0 := 256) (n1 := 1024) j⟩
  have hp : p.val < 256 := p.isLt
  have hemb : ((cfg0.win 6).blk t).view.emb (ix2 p q) = ix2 (⟨256 * t.val + p.val, by omega⟩ : Fin 8192) q := by
    funext a
    apply Fin.ext
    match a with
    | ⟨0, _⟩ => show win0_6.index t (0 : Fin 2) * 256 + 1 * p.val = 256 * t.val + p.val; rw [e0]; omega
    | ⟨1, _⟩ => show win0_6.index t (1 : Fin 2) * 1024 + 1 * q.val = q.val; rw [e1]; omega
  show out0_6 (iblk m c 0 t) (iblk m c 1 t) (iblk m c 2 t) (iblk m c 3 t) (iblk m c 4 t) (iblk m c 5 t) (ix2 p q)
    = nextHT (arrX m c) (arrH m c) (arrC m c) (arrWx m c) (arrB m c) (arrWh m c) (((cfg0.win 6).blk t).view.emb (ix2 p q))
  rw [hemb]
  refine (hidden_tile_apply (iblk m c 0 t) (iblk m c 1 t) (iblk m c 2 t) (iblk m c 3 t) (iblk m c 5 t) (iblk m c 4 t) p q).trans ?_
  exact tileH_of_rows (arrX m c) (arrH m c) (arrC m c) (arrWx m c) (arrWh m c) (arrB m c)
    (iblk m c 0 t) (iblk m c 1 t) (iblk m c 2 t) (iblk m c 3 t) (iblk m c 5 t) (iblk m c 4 t) ⟨256 * t.val + p.val, by omega⟩ p q
    (fun k => blockX_apply m c t _ _ rfl rfl) (fun k => blockH_apply m c t _ _ rfl rfl) (blockC_apply m c t _ _ rfl rfl)
    (blockWx_eq m c t) (blockWh_eq m c t) (blockB_eq m c t)

/-! ## The 32 row blocks tile the results -/

theorem mem_blockC (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v3_1).slice (win0_7.rect t)).set ↔ _
  rw [View.set_slice_whole, Rect.mem_set_unit]
  exact Iff.rfl

theorem mem_blockH (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v3_0).slice (win0_6.rect t)).set ↔ _
  rw [View.set_slice_whole, Rect.mem_set_unit]
  exact Iff.rfl

/-- Row r of a result lies in the block of point r / 256. -/
theorem coverC (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 32 := N_0
  have hlt : (i 0).val / 256 < cfg0.N := by rw [hN]; omega
  obtain ⟨-, -, -, -, -, -, -, -, -, -, -, -, -, -, e0, e1⟩ := idx_facts ⟨(i 0).val / 256, hlt⟩
  refine ⟨⟨(i 0).val / 256, hlt⟩, flush0_7 _, ?_⟩
  rw [mem_blockC]
  intro a
  match a with
  | ⟨0, _⟩ =>
    show win0_7.index ⟨(i 0).val / 256, hlt⟩ (0 : Fin 2) * 256 ≤ (i 0).val ∧ (i 0).val < win0_7.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_7.index ⟨(i 0).val / 256, hlt⟩ (1 : Fin 2) * 1024 ≤ (i 1).val ∧ (i 1).val < win0_7.index ⟨(i 0).val / 256, hlt⟩ (1 : Fin 2) * 1024 + 1024
    rw [e1]; omega

theorem coverH (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 32 := N_0
  have hlt : (i 0).val / 256 < cfg0.N := by rw [hN]; omega
  obtain ⟨-, -, -, -, -, -, -, -, -, -, -, -, e0, e1, -⟩ := idx_facts ⟨(i 0).val / 256, hlt⟩
  refine ⟨⟨(i 0).val / 256, hlt⟩, flush0_6 _, ?_⟩
  rw [mem_blockH]
  intro a
  match a with
  | ⟨0, _⟩ =>
    show win0_6.index ⟨(i 0).val / 256, hlt⟩ (0 : Fin 2) * 256 ≤ (i 0).val ∧ (i 0).val < win0_6.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_6.index ⟨(i 0).val / 256, hlt⟩ (1 : Fin 2) * 1024 ≤ (i 1).val ∧ (i 1).val < win0_6.index ⟨(i 0).val / 256, hlt⟩ (1 : Fin 2) * 1024 + 1024
    rw [e1]; omega

/-! ## The arrays the region finds, from the arguments -/

/-- The bf16 copy of Wx is Wx on the extended reals. -/
theorem arrWx_eq (c : Dev nD) : arrWx m c = (m ((c : Thread nD τ).loc main_arg3) : S1024x4096.Idx → EReal) := by
  show (V m c main_v0 : S1024x4096.Idx → EReal) = _
  dsimp only [V, hostOps0]
  after_results
  rfl

/-- The bf16 copy of Wh is Wh on the extended reals. -/
theorem arrWh_eq (c : Dev nD) : arrWh m c = (m ((c : Thread nD τ).loc main_arg5) : S1024x4096.Idx → EReal) := by
  show (V m c main_v1 : S1024x4096.Idx → EReal) = _
  dsimp only [V, hostOps0]
  after_results
  rfl

/-- The one-row bias holds the bias. -/
theorem arrB_apply (c : Dev nD) (j : Fin 4096) :
    arrB m c (ix2 (0 : Fin 1) j) = (m ((c : Thread nD τ).loc main_arg4) : S4096.Idx → EReal) (ix1 j) := by
  have e : (V m c main_v2 : S1x4096.Idx → EReal)
      = shapeCast S1x4096 (m ((c : Thread nD τ).loc main_arg4) : S4096.Idx → EReal) shapeCasts_S4096_S1x4096 := by
    dsimp only [V, hostOps0]
    after_results
    rfl
  show (V m c main_v2 : S1x4096.Idx → EReal) (ix2 (0 : Fin 1) j) = _
  rw [e, shapeCast_a_1a_apply]

/-! ## The result arrays and the run -/

/-- After the run the second result holds the next cell state of the arguments. -/
theorem cell_final (c : Dev nD) :
    (dats m 0 c).arrAt 7 cfg0.N = nextC (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  rw [(dats m 0 c).arrAt_eq_of_cover 7 _ (fun t _ => cell_flushed m c t) coverC]
  rw [nextCT_eq (arrX m c) (arrH m c) (arrC m c) (arrWx m c) (m ((c : Thread nD τ).loc main_arg4)) (arrB m c) (arrWh m c) (arrB_apply m c)]
  rw [arrWx_eq, arrWh_eq]
  show nextC (V m c main_arg0) (V m c main_arg1) (V m c main_arg2) _ _ _ = _
  rw [V_main_arg0, V_main_arg1, V_main_arg2]

/-- After the run the first result holds the next hidden state of the arguments. -/
theorem hidden_final (c : Dev nD) :
    (dats m 0 c).arrAt 6 cfg0.N = nextH (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  rw [(dats m 0 c).arrAt_eq_of_cover 6 _ (fun t _ => hidden_flushed m c t) coverH]
  rw [nextHT_eq (arrX m c) (arrH m c) (arrC m c) (arrWx m c) (m ((c : Thread nD τ).loc main_arg4)) (arrB m c) (arrWh m c) (arrB_apply m c)]
  rw [arrWx_eq, arrWh_eq]
  show nextH (V m c main_arg0) (V m c main_arg1) (V m c main_arg2) _ _ _ = _
  rw [V_main_arg0, V_main_arg1, V_main_arg2]

/-- The kernel's run, read: the two results at the cell of the arguments, the arguments unchanged. -/
theorem run : θ_run defs (onTc (τ := τ) (main (F := Ideal))) ⟨m, fun _ => 0, ρ⟩ fun r => ∀ c : Dev nD,
      r.2.mem ((c : Thread nD τ).loc main_v3_0) = nextH (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      ∧ r.2.mem ((c : Thread nD τ).loc main_v3_1) = nextC (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (hidden_final m c), (h c).2.1.trans (cell_final m c), (h c).2.2⟩)
    (Value.run_blocks m ρ)

end Cert.KernelIdeal.CellValue

end
-- ==== Proof.RefValue.lean ====
/-
  The reference's two results, read one host operation at a time, are the cell's next state and next hidden
  state (CellSpec): the stacked pre-activation (x·Wx + b) + h·Wh is sliced into its four gate bands, the logistic
  function is spelt 1 / (1 + e^(-z)), and the rest is the cell's own formula in the same order.
-/
import proofs.«427279_j10101763080406_3_alg».proof.Proof.Gen.ReferenceIdeal.Read
import proofs.«427279_j10101763080406_3_alg».proof.Proof.CellSpec

noncomputable section

namespace Cert.ReferenceIdeal.RefValue

open Cert.ReferenceIdeal Cert.ReferenceIdeal.Read Idealize.ShloMosaic Idealize.ShloMosaic.ValueIdx Cert.LstmCell

variable (x0 x1 x2 : (⟨S8192x1024, .f32⟩ : BufTy).Contents (Elt Ideal)) (x3 x5 : (⟨S1024x4096, .f32⟩ : BufTy).Contents (Elt Ideal))
  (x4 : (⟨S4096, .f32⟩ : BufTy).Contents (Elt Ideal))

/-! ## The operand indices of the two products and of the broadcast bias, by coordinates -/

theorem lhs_x (r : Fin 8192) (j : Fin 4096) (k : Fin 1024) : lidx_main_v0 (ix2 r j) k = ix2 r k :=
  funext fun a => by match a with | ⟨0, _⟩ => rfl | ⟨1, _⟩ => rfl
theorem rhs_x (r : Fin 8192) (j : Fin 4096) (k : Fin 1024) : ridx_main_v0 (ix2 r j) k = ix2 k j :=
  funext fun a => by match a with | ⟨0, _⟩ => rfl | ⟨1, _⟩ => rfl
theorem lhs_h (r : Fin 8192) (j : Fin 4096) (k : Fin 1024) : lidx_main_v4 (ix2 r j) k = ix2 r k :=
  funext fun a => by match a with | ⟨0, _⟩ => rfl | ⟨1, _⟩ => rfl
theorem rhs_h (r : Fin 8192) (j : Fin 4096) (k : Fin 1024) : ridx_main_v4 (ix2 r j) k = ix2 k j :=
  funext fun a => by match a with | ⟨0, _⟩ => rfl | ⟨1, _⟩ => rfl
theorem bias_idx (r : Fin 8192) (j : Fin 4096) : idx_main_v1 (idx_main_v2 (ix2 r j)) = ix1 j :=
  funext fun a => by match a with | ⟨0, _⟩ => rfl

/-- The stacked pre-activation at (r, j) is (Σ_k x[r,k]·Wx[k,j] + b[j]) + Σ_k h[r,k]·Wh[k,j]. -/
theorem stacked_apply (r : Fin 8192) (j : Fin 4096) :
    val_main_v5 (F := Ideal) x0 x1 x3 x4 x5 (ix2 r j) = preact x0 x1 x3 x5 x4 r j := by
  rw [val_main_v5_apply, val_main_v3_apply, val_main_v0_apply, val_main_v4_apply, val_main_v2_apply, val_main_v1_apply]
  simp only [lhs_x, rhs_x, lhs_h, rhs_h, bias_idx]
  rfl

/-! ## The four gate bands of the stacked pre-activation -/

theorem bandI_idx (p : Fin 8192) (q : Fin 1024) : idx_main_v6 (ix2 p q) = ix2 p (colI q) :=
  funext fun a => by match a with | ⟨0, _⟩ => rfl | ⟨1, _⟩ => rfl
theorem bandF_idx (p : Fin 8192) (q : Fin 1024) : idx_main_v7 (ix2 p q) = ix2 p (colF q) :=
  funext fun a => by match a with | ⟨0, _⟩ => rfl | ⟨1, _⟩ => rfl
theorem bandO_idx (p : Fin 8192) (q : Fin 1024) : idx_main_v8 (ix2 p q) = ix2 p (colO q) :=
  funext fun a => by match a with | ⟨0, _⟩ => rfl | ⟨1, _⟩ => rfl
theorem bandG_idx (p : Fin 8192) (q : Fin 1024) : idx_main_v9 (ix2 p q) = ix2 p (colG q) :=
  funext fun a => by match a with | ⟨0, _⟩ => rfl | ⟨1, _⟩ => rfl

theorem bandI_apply (p : Fin 8192) (q : Fin 1024) :
    val_main_v6 (F := Ideal) x0 x1 x3 x4 x5 (ix2 p q) = preact x0 x1 x3 x5 x4 p (colI q) := by
  rw [val_main_v6_apply, bandI_idx, stacked_apply]
theorem bandF_apply (p : Fin 8192) (q : Fin 1024) :
    val_main_v7 (F := Ideal) x0 x1 x3 x4 x5 (ix2 p q) = preact x0 x1 x3 x5 x4 p (colF q) := by
  rw [val_main_v7_apply, bandF_idx, stacked_apply]
theorem bandO_apply (p : Fin 8192) (q : Fin 1024) :
    val_main_v8 (F := Ideal) x0 x1 x3 x4 x5 (ix2 p q) = preact x0 x1 x3 x5 x4 p (colO q) := by
  rw [val_main_v8_apply, bandO_idx, stacked_apply]
theorem bandG_apply (p : Fin 8192) (q : Fin 1024) :
    val_main_v9 (F := Ideal) x0 x1 x3 x4 x5 (ix2 p q) = preact x0 x1 x3 x5 x4 p (colG q) := by
  rw [val_main_v9_apply, bandG_idx, stacked_apply]

/-! ## The three logistic gates: 1 / (1 + e^(-z)) of their band -/

theorem gateI_apply (p : Fin 8192) (q : Fin 1024) :
    val_main_v15 (F := Ideal) x0 x1 x3 x4 x5 (ix2 p q) = sigm (preact x0 x1 x3 x5 x4 p (colI q)) := by
  rw [val_main_v15_apply, val_main_v14_apply, val_main_cst_0_apply, val_main_v13_apply, val_main_v12_apply, val_main_cst_apply,
    val_main_v11_apply, val_main_v10_apply, bandI_apply]
  rfl
theorem gateF_apply (p : Fin 8192) (q : Fin 1024) :
    val_main_v21 (F := Ideal) x0 x1 x3 x4 x5 (ix2 p q) = sigm (preact x0 x1 x3 x5 x4 p (colF q)) := by
  rw [val_main_v21_apply, val_main_v20_apply, val_main_cst_2_apply, val_main_v19_apply, val_main_v18_apply, val_main_cst_1_apply,
    val_main_v17_apply, val_main_v16_apply, bandF_apply]
  rfl
theorem gateO_apply (p : Fin 8192) (q : Fin 1024) :
    val_main_v27 (F := Ideal) x0 x1 x3 x4 x5 (ix2 p q) = sigm (preact x0 x1 x3 x5 x4 p (colO q)) := by
  rw [val_main_v27_apply, val_main_v26_apply, val_main_cst_4_apply, val_main_v25_apply, val_main_v24_apply, val_main_cst_3_apply,
    val_main_v23_apply, val_main_v22_apply, bandO_apply]
  rfl

/-! ## The two results -/

theorem cell_apply (p : Fin 8192) (q : Fin 1024) :
    val_main_v31 (F := Ideal) x0 x1 x2 x3 x4 x5 (ix2 p q) = nextCAt x0 x1 x2 x3 x4 x5 p q := by
  rw [val_main_v31_apply, val_main_v29_apply, val_main_v30_apply, val_main_v28_apply, gateF_apply, gateI_apply, bandG_apply]
  rfl

theorem hidden_apply (p : Fin 8192) (q : Fin 1024) :
    val_main_v33 (F := Ideal) x0 x1 x2 x3 x4 x5 (ix2 p q) = nextHAt x0 x1 x2 x3 x4 x5 p q := by
  rw [val_main_v33_apply, val_main_v32_apply, gateO_apply, cell_apply]
  rfl

/-- The reference's second result is the next cell state. -/
theorem cell_eq : val_main_v31 (F := Ideal) x0 x1 x2 x3 x4 x5 = nextC x0 x1 x2 x3 x4 x5 := by
  funext i
  obtain ⟨p, q, rfl⟩ : ∃ (p : Fin 8192) (q : Fin 1024), i = ix2 p q := ⟨i 0, i 1, eq_ix2 i⟩
  exact cell_apply x0 x1 x2 x3 x5 x4 p q

/-- The reference's first result is the next hidden state. -/
theorem hidden_eq : val_main_v33 (F := Ideal) x0 x1 x2 x3 x4 x5 = nextH x0 x1 x2 x3 x4 x5 := by
  funext i
  obtain ⟨p, q, rfl⟩ : ∃ (p : Fin 8192) (q : Fin 1024), i = ix2 p q := ⟨i 0, i 1, eq_ix2 i⟩
  exact hidden_apply x0 x1 x2 x3 x5 x4 p q

end Cert.ReferenceIdeal.RefValue

end
-- ==== Proof.lean ====
/- The LSTM cell kernel against its jnp reference, over the extended reals.

   Both programs compute, for 8192 batch rows and 1024 state columns, the next cell state
   c' = c · σ(z_f) + tanh (z_g) · σ(z_i) and the next hidden state h' = tanh (c') · σ(z_o), where the four gate
   pre-activations are the 1024-column bands of x·Wx + b + h·Wh over the 4096 stacked gate columns.

   The reference forms the whole 8192 × 4096 pre-activation as (x·Wx + b) + h·Wh, slices its four bands and spells
   the logistic function 1 / (1 + e^(-z)). The kernel walks the batch in 32 tiles of 256 rows; on each tile and for
   each gate it multiplies the tile's rows of x and of h with the gate's band of the weight matrices, adds the two
   products and then the band of the bias, and spells the logistic function 1/2 · tanh (z/2) + 1/2. The weights'
   change of float format before the kernel is the identity on the extended reals, a product into a zero
   accumulator and the host's product are the same sum over the 1024 contraction indices, the pre-activation does
   not depend on the order of its three summands (addition of extended reals is commutative and associative), and
   the tangent form of the logistic function agrees with the quotient form at every extended real, ±∞ included.
   So the two programs end with the same two arrays for ANY inputs; the finiteness precondition is not used.

   Proof/LogisticTanh.lean: the scalar law. Proof/CellSpec.lean: the cell as a function of the six arrays, in the
   reference's arrangement and in the tiled one, and their equality. Proof/RefValue.lean: the reference's results
   are the cell. Proof/KernelTile.lean: one grid point's two output tiles at an index. Proof/KernelArray.lean:
   the 32 tiles are the rows of the cell, and the kernel's run. Here: the five claims. -/
import proofs.«427279_j10101763080406_3_alg».proof.Defs
import proofs.«427279_j10101763080406_3_alg».proof.Proof.Gen.Kernel
import proofs.«427279_j10101763080406_3_alg».proof.Proof.Gen.Kernel.Skeleton
import proofs.«427279_j10101763080406_3_alg».proof.Proof.Gen.Kernel.Launch
import proofs.«427279_j10101763080406_3_alg».proof.Proof.Gen.Kernel.Points
import proofs.«427279_j10101763080406_3_alg».proof.Proof.Gen.Kernel.Frame
import proofs.«427279_j10101763080406_3_alg».proof.Proof.Gen.KernelIdeal
import proofs.«427279_j10101763080406_3_alg».proof.Proof.Gen.KernelIdeal.Skeleton
import proofs.«427279_j10101763080406_3_alg».proof.Proof.Gen.KernelIdeal.Launch
import proofs.«427279_j10101763080406_3_alg».proof.Proof.Gen.KernelIdeal.Points
import proofs.«427279_j10101763080406_3_alg».proof.Proof.Gen.KernelIdeal.Frame
import proofs.«427279_j10101763080406_3_alg».proof.Proof.Gen.ReferenceIdeal
import proofs.«427279_j10101763080406_3_alg».proof.Proof.Gen.Pre_finite_inputs
import proofs.«427279_j10101763080406_3_alg».proof.Proof.Gen.KernelIdeal.Value
import proofs.«427279_j10101763080406_3_alg».proof.Proof.Gen.ReferenceIdeal.Run
import proofs.«427279_j10101763080406_3_alg».proof.Proof.Gen.ReferenceIdeal.Read
import proofs.«427279_j10101763080406_3_alg».proof.Proof.KernelArray
import proofs.«427279_j10101763080406_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the next hidden state and the next cell state of the (agreeing) arguments. -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v33_eq, Cert.ReferenceIdeal.RefValue.hidden_eq,
      (hagree c).1, (hagree c).2.1, (hagree c).2.2.1, (hagree c).2.2.2.1, (hagree c).2.2.2.2.1, (hagree c).2.2.2.2.2]
  · rw [Cert.ReferenceIdeal.Read.val_main_v31_eq, Cert.ReferenceIdeal.RefValue.cell_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
